-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S2x2048x4096 .f32) (main_arg1 : FVec F S11008x4096 .f32) (main_arg2 : FVec F S11008x4096 .f32) (main_arg3 : FVec F S4096x11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S4096x4096 : Shape := ⟨2, ![4096, 4096]⟩
abbrev S256x4096 : Shape := ⟨2, ![256, 4096]⟩
abbrev S4096x256 : Shape := ⟨2, ![4096, 256]⟩
abbrev S256x256 : Shape := ⟨2, ![256, 256]⟩

abbrev nBuf : Space → Nat
  | .hbm => 11
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4096x4096, .f32⟩
  | .hbm, ⟨5, _⟩ => ⟨S4096x4096, .bf16⟩
  | .hbm, ⟨6, _⟩ => ⟨S11008x4096, .bf16⟩
  | .hbm, ⟨7, _⟩ => ⟨S11008x4096, .bf16⟩
  | .hbm, ⟨8, _⟩ => ⟨S4096x11008, .bf16⟩
  | .hbm, ⟨9, _⟩ => ⟨S4096x4096, .f32⟩
  | .hbm, ⟨10, _⟩ => ⟨S2x2048x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 43], ![false, false]⟩

def k0_cond2 (i : grid0.Coords) : BitVec 1 :=
  let arg1 : BitVec 32 := BitVec.ofNat 32 (i 1).val
  let c42_i32 : BitVec 32 := 42#32
  let v23 : BitVec 1 := Scalar.cmpi .eq arg1 c42_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x2048x4096_S4096x4096 : S2x2048x4096.ShapeCasts S4096x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S4096x4096_S2x2048x4096 : S4096x4096.ShapeCasts S2x2048x4096
  dot_S256x4096_S256x4096_S256x256_1_1_0_0_n_n_wf : DotDims.WF S256x4096 S256x4096 S256x256 [1] [1] [0] [0] [] []
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x11008.size a
  hwx0_3 : ∀ i : grid0.Coords, EltTy.bits .bf16 = 32 ∨ (Rect.block (s := S4096x11008) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S4096x4096 : Shape := ⟨2, ![4096, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4096x4096, .f32⟩
  | .hbm, ⟨5, _⟩ => ⟨S4096x11008, .f32⟩
  | .hbm, ⟨6, _⟩ => ⟨S4096x11008, .f32⟩
  | .hbm, ⟨7, _⟩ => ⟨S4096x11008, .f32⟩
  | .hbm, ⟨8, _⟩ => ⟨S4096x11008, .f32⟩
  | .hbm, ⟨9, _⟩ => ⟨S_, .f32⟩
  | .hbm, ⟨10, _⟩ => ⟨S4096x11008, .f32⟩
  | .hbm, ⟨11, _⟩ => ⟨S4096x11008, .f32⟩
  | .hbm, ⟨12, _⟩ => ⟨S_, .f32⟩
  | .hbm, ⟨13, _⟩ => ⟨S4096x11008, .f32⟩
  | .hbm, ⟨14, _⟩ => ⟨S4096x11008, .f32⟩
  | .hbm, ⟨15, _⟩ => ⟨S4096x11008, .f32⟩
  | .hbm, ⟨16, _⟩ => ⟨S4096x11008, .f32⟩
  | .hbm, ⟨17, _⟩ => ⟨S4096x4096, .f32⟩
  | .hbm, ⟨18, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]

class Facts₀ : Prop where
  shapeCasts_S2x2048x4096_S4096x4096 : S2x2048x4096.ShapeCasts S4096x4096
  bcast_S_S4096x11008 : S_.BroadcastsInDim S4096x11008 (![] : Fin 0 → Fin S4096x11008.rank)
  shapeCasts_S4096x4096_S2x2048x4096 : S4096x4096.ShapeCasts S2x2048x4096
  dot_S4096x4096_S11008x4096_S4096x11008_1_1_0_0_n_n_wf : DotDims.WF S4096x4096 S11008x4096 S4096x11008 [1] [1] [0] [0] [] []
  dot_S4096x11008_S4096x11008_S4096x4096_1_1_0_0_n_n_wf : DotDims.WF S4096x11008 S4096x11008 S4096x4096 [1] [1] [0] [0] [] []

variable [Facts₀]

def dot_S4096x4096_S11008x4096_S4096x11008_1_1_0_0_n_n : DotDims S4096x4096 S11008x4096 S4096x11008 where
  lhsContracting := [1]
  rhsContracting := [1]
  lhsNonContracting := [0]
  rhsNonContracting := [0]
  lhsBatch := []
  rhsBatch := []
  wf := dot_S4096x4096_S11008x4096_S4096x11008_1_1_0_0_n_n_wf
def dot_S4096x11008_S4096x11008_S4096x4096_1_1_0_0_n_n : DotDims S4096x11008 S4096x11008 S4096x4096 where
  lhsContracting := [1]
  rhsContracting := [1]
  lhsNonContracting := [0]
  rhsNonContracting := [0]
  lhsBatch := []
  rhsBatch := []
  wf := dot_S4096x11008_S4096x11008_S4096x4096_1_1_0_0_n_n_wf

class Facts : Prop extends Facts₀ where

variable [Facts]
-- ==== Proof.Step.lean ====
/-
  The body's one arithmetic term, read at an index over the extended reals.

  Its operands are this grid point's blocks: `x` (256 tokens × model width), `wg` and `wu` (256 hidden units ×
  model width), `wd` (model width × 256 hidden units), and the running block `acc`. Both first products contract the
  model width: `g[r, j] = ∑ e, x[r, e] · wg[j, e]` and `u[r, j] = ∑ e, x[r, e] · wu[j, e]` (`inner`). The hidden
  block is `(g · σ(g)) · u`; rounding it to the narrower format is the identity on the extended reals. The last product
  contracts the 256 hidden units of the block: the term at `(r, d)` is
  `acc[r, d] + ∑ j, ((g[r, j] · σ(g[r, j])) · u[r, j]) · wd[d, j]` (`step_apply`).
  A matrix product into a zero accumulator is the bare sum of products over the contracted axis; the contracted axis is
  axis 1 of both operands in all three products.
-/
import proofs.«144711_j59279138619703_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Step

open Cert.KernelIdeal Cert.KernelIdeal.Gen

/-! ## The two contraction records: which coordinate of each operand an output index and a summation index give -/

theorem up_lhs_0 (i : S256x256.Idx) (q : dot_S256x4096_S256x4096_S256x256_1_1_0_0_n_n.contr.Idx) : (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem up_lhs_1 (i : S256x256.Idx) (q : dot_S256x4096_S256x4096_S256x256_1_1_0_0_n_n.contr.Idx) : (dot_S256x4096_S256x4096_S256x256_1_1_0_0_n_n.lhsIdx i q 1).val = (q ⟨0, by decide⟩).val :=
  dot_S256x4096_S256x4096_S256x256_1_1_0_0_n_n.lhsIdx_val_of_single rfl i q
theorem up_rhs_0 (i : S256x256.Idx) (q : dot_S256x4096_S256x4096_S256x256_1_1_0_0_n_n.contr.Idx) : (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem up_rhs_1 (i : S256x256.Idx) (q : dot_S256x4096_S256x4096_S256x256_1_1_0_0_n_n.contr.Idx) : (dot_S256x4096_S256x4096_S256x256_1_1_0_0_n_n.rhsIdx i q 1).val = (q ⟨0, by decide⟩).val :=
  dot_S256x4096_S256x4096_S256x256_1_1_0_0_n_n.rhsIdx_val_of_single rfl i q

theorem down_lhs_0 (i : S256x4096.Idx) (q : dot_S256x256_S4096x256_S256x4096_1_1_0_0_n_n.contr.Idx) : (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
theorem down_lhs_1 (i : S256x4096.Idx) (q : dot_S256x256_S4096x256_S256x4096_1_1_0_0_n_n.contr.Idx) : (dot_S256x256_S4096x256_S256x4096_1_1_0_0_n_n.lhsIdx i q 1).val = (q ⟨0, by decide⟩).val :=
  dot_S256x256_S4096x256_S256x4096_1_1_0_0_n_n.lhsIdx_val_of_single rfl i q
theorem down_rhs_0 (i : S256x4096.Idx) (q : dot_S256x256_S4096x256_S256x4096_1_1_0_0_n_n.contr.Idx) : (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl
theorem down_rhs_1 (i : S256x4096.Idx) (q : dot_S256x256_S4096x256_S256x4096_1_1_0_0_n_n.contr.Idx) : (dot_S256x256_S4096x256_S256x4096_1_1_0_0_n_n.rhsIdx i q 1).val = (q ⟨0, by decide⟩).val :=
  dot_S256x256_S4096x256_S256x4096_1_1_0_0_n_n.rhsIdx_val_of_single rfl i q

/-! ## The products at an index -/

/-- A row block times a weight block, contracted over the model width. -/
theorem up_apply (a : FVec Ideal S256x4096 .bf16) (b : FVec Ideal S256x4096 .bf16) (p : Fin 256) (q : Fin 256) :
    matmul dot_S256x4096_S256x4096_S256x256_1_1_0_0_n_n none a b (constant (F := Ideal) S256x256 .f32 0x00000000#32) (ix2 p q)
      = ∑ e : Fin 4096, a (ix2 p e) * b (ix2 q e) := by
  simp only [matmul]
  rw [Ideal.matmul_constant_zero_apply, ← Equiv.sum_comp (ValueIdx.contrEquiv1 dot_S256x4096_S256x4096_S256x256_1_1_0_0_n_n 4096 rfl rfl).symm]
  refine Finset.sum_congr rfl fun k _ => ?_
  have hk := ValueIdx.contrEquiv1_symm_val dot_S256x4096_S256x4096_S256x256_1_1_0_0_n_n 4096 rfl rfl k
  have el : dot_S256x4096_S256x4096_S256x256_1_1_0_0_n_n.lhsIdx (ix2 p q) ((ValueIdx.contrEquiv1 dot_S256x4096_S256x4096_S256x256_1_1_0_0_n_n 4096 rfl rfl).symm k) = ix2 p k := funext fun x => Fin.ext (by
    match x with
    | ⟨0, _⟩ => exact up_lhs_0 _ _
    | ⟨1, _⟩ => exact (up_lhs_1 _ _).trans hk)
  have er : dot_S256x4096_S256x4096_S256x256_1_1_0_0_n_n.rhsIdx (ix2 p q) ((ValueIdx.contrEquiv1 dot_S256x4096_S256x4096_S256x256_1_1_0_0_n_n 4096 rfl rfl).symm k) = ix2 q k := funext fun x => Fin.ext (by
    match x with
    | ⟨0, _⟩ => exact up_rhs_0 _ _
    | ⟨1, _⟩ => exact (up_rhs_1 _ _).trans hk)
  rw [el, er]

/-- The hidden block times the down-weight block, contracted over the block's 256 hidden units. -/
theorem down_apply (a : FVec Ideal S256x256 .bf16) (b : FVec Ideal S4096x256 .bf16) (p : Fin 256) (q : Fin 4096) :
    matmul dot_S256x256_S4096x256_S256x4096_1_1_0_0_n_n none a b (constant (F := Ideal) S256x4096 .f32 0x00000000#32) (ix2 p q)
      = ∑ e : Fin 256, a (ix2 p e) * b (ix2 q e) := by
  simp only [matmul]
  rw [Ideal.matmul_constant_zero_apply, ← Equiv.sum_comp (ValueIdx.contrEquiv1 dot_S256x256_S4096x256_S256x4096_1_1_0_0_n_n 256 rfl rfl).symm]
  refine Finset.sum_congr rfl fun k _ => ?_
  have hk := ValueIdx.contrEquiv1_symm_val dot_S256x256_S4096x256_S256x4096_1_1_0_0_n_n 256 rfl rfl k
  have el : dot_S256x256_S4096x256_S256x4096_1_1_0_0_n_n.lhsIdx (ix2 p q) ((ValueIdx.contrEquiv1 dot_S256x256_S4096x256_S256x4096_1_1_0_0_n_n 256 rfl rfl).symm k) = ix2 p k := funext fun x => Fin.ext (by
    match x with
    | ⟨0, _⟩ => exact down_lhs_0 _ _
    | ⟨1, _⟩ => exact (down_lhs_1 _ _).trans hk)
  have er : dot_S256x256_S4096x256_S256x4096_1_1_0_0_n_n.rhsIdx (ix2 p q) ((ValueIdx.contrEquiv1 dot_S256x256_S4096x256_S256x4096_1_1_0_0_n_n 256 rfl rfl).symm k) = ix2 q k := funext fun x => Fin.ext (by
    match x with
    | ⟨0, _⟩ => exact down_rhs_0 _ _
    | ⟨1, _⟩ => exact (down_rhs_1 _ _).trans hk)
  rw [el, er]

/-- The inner product of row `r` of a token block with row `j` of a weight block. -/
def inner (x w : Vec Ideal S256x4096 .bf16) (r j : Fin 256) : EReal := ∑ e : Fin 4096, x (ix2 r e) * w (ix2 j e)

/-- The body's term at `(r, d)`: the running value plus this block's share of the down projection. -/
theorem step_apply (x0 x1 x2 : Vec Ideal S256x4096 .bf16) (x3 : Vec Ideal S4096x256 .bf16) (acc : Vec Ideal S256x4096 .f32)
    (r : Fin 256) (d : Fin 4096) :
    k0_pay2 (F := Ideal) x0 x1 x2 x3 acc (ix2 r d)
      = acc (ix2 r d) + ∑ j : Fin 256, ((inner x0 x1 r j * Ideal.logistic (inner x0 x1 r j)) * inner x0 x2 r j) * x3 (ix2 d j) := by
  unfold k0_pay2
  simp only [shapeCast_self]
  show acc (ix2 r d) + matmul (F := Ideal) dot_S256x256_S4096x256_S256x4096_1_1_0_0_n_n none _ x3 _ (ix2 r d) = _
  rw [down_apply]
  refine congrArg _ (Finset.sum_congr rfl fun j _ => congrArg (· * x3 (ix2 d j)) ?_)
  show (matmul (F := Ideal) dot_S256x4096_S256x4096_S256x256_1_1_0_0_n_n none x0 x1 _ (ix2 r j) * FloatOps.logistic (matmul (F := Ideal) dot_S256x4096_S256x4096_S256x256_1_1_0_0_n_n none x0 x1 _ (ix2 r j)))
      * matmul (F := Ideal) dot_S256x4096_S256x4096_S256x256_1_1_0_0_n_n none x0 x2 _ (ix2 r j) = _
  rw [up_apply, up_apply]
  rfl

end Cert.KernelIdeal.Step

end
-- ==== Proof.GatedMlp.lean ====
/-
  The gated feed-forward layer as one function of its four arrays, over the extended reals, with no program in sight.

  Tokens are the 4096 rows of `X` (model width 4096); the hidden width is 11008. For a token `t` and a hidden unit `f`
  the gate pre-activation is `g = ∑ d, X[t, d] · Wg[f, d]`, the up projection `u = ∑ d, X[t, d] · Wu[f, d]`, the hidden
  value `h[t, f] = (g · σ(g)) · u` with `σ` the logistic function, and the layer's output is
  `out[t, d] = ∑ f, h[t, f] · Wd[d, f]`.

  The hidden width splits as 43 blocks of 256 (`11008 = 43 · 256`): hidden unit `256 k + j` is unit `j` of block `k`.
  Addition of extended reals is commutative and associative (an additive commutative monoid: no infinity is ever
  cancelled), so the sum over the hidden width is the sum over the blocks of each block's own sum (`sum_blocks`,
  `out_eq_sum_part`). A left fold `((0 + p 0) + p 1) + … + p k` of the blocks' sums is their partial sum
  (`upTo`), and after the last block the whole sum (`upTo_last`).
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.GatedMlp

open Idealize.ShloMosaic Idealize.ShloMosaic.ValueIdx

/-- Tokens by model width. -/
abbrev STok : Shape := ⟨2, ![4096, 4096]⟩
/-- Hidden width by model width: the gate's and the up projection's weights, one row per hidden unit. -/
abbrev SIn : Shape := ⟨2, ![11008, 4096]⟩
/-- Model width by hidden width: the down projection's weights, one row per output feature. -/
abbrev SOut : Shape := ⟨2, ![4096, 11008]⟩

variable (X : STok.Idx → EReal) (Wg Wu : SIn.Idx → EReal) (Wd : SOut.Idx → EReal)

/-- A projection of token `t` onto hidden unit `f`: the inner product of the token's row with the unit's row. -/
def proj (W : SIn.Idx → EReal) (t : Fin 4096) (f : Fin 11008) : EReal := ∑ d : Fin 4096, X (ix2 t d) * W (ix2 f d)

/-- The hidden value: the gate `g · σ(g)` times the up projection. -/
def hid (t : Fin 4096) (f : Fin 11008) : EReal :=
  (proj X Wg t f * Ideal.logistic (proj X Wg t f)) * proj X Wu t f

/-- The layer: the hidden values projected down. -/
def out : STok.Idx → EReal := fun i => ∑ f : Fin 11008, hid X Wg Wu (i 0) f * Wd (ix2 (i 1) f)

/-! ## The hidden width in 43 blocks of 256 -/

/-- Hidden unit `j` of block `k`. -/
def unit (k : Fin 43) (j : Fin 256) : Fin 11008 := ⟨256 * k.val + j.val, by have := k.isLt; have := j.isLt; omega⟩

theorem unit_val (k : Fin 43) (j : Fin 256) : (unit k j).val = 256 * k.val + j.val := rfl

/-- The tokens likewise come in 16 row blocks of 256: token `r` of row block `i`. -/
def tok (i : Fin 16) (r : Fin 256) : Fin 4096 := ⟨256 * i.val + r.val, by have := i.isLt; have := r.isLt; omega⟩

theorem tok_val (i : Fin 16) (r : Fin 256) : (tok i r).val = 256 * i.val + r.val := rfl

/-- A sum over the hidden width is the sum over the blocks of the sums inside each block. -/
theorem sum_blocks {M : Type} [AddCommMonoid M] (a : Fin 11008 → M) :
    ∑ f : Fin 11008, a f = ∑ k : Fin 43, ∑ j : Fin 256, a (unit k j) := by
  rw [← Equiv.sum_comp (finProdFinEquiv : Fin 43 × Fin 256 ≃ Fin 11008) a, Fintype.sum_prod_type]
  refine Finset.sum_congr rfl fun k _ => Finset.sum_congr rfl fun j _ => congrArg a (Fin.ext ?_)
  show j.val + 256 * k.val = 256 * k.val + j.val
  omega

/-- What block `k` of the hidden width adds to output `(t, d)`. -/
def part (t d : Fin 4096) (k : Fin 43) : EReal := ∑ j : Fin 256, hid X Wg Wu t (unit k j) * Wd (ix2 d (unit k j))

/-- The layer's output is the sum of the 43 blocks' contributions. -/
theorem out_eq_sum_part (i : STok.Idx) : out X Wg Wu Wd i = ∑ k : Fin 43, part X Wg Wu Wd (i 0) (i 1) k :=
  sum_blocks fun f => hid X Wg Wu (i 0) f * Wd (ix2 (i 1) f)

/-! ## A left fold of the blocks is their partial sum -/

/-- The sum of the contributions of blocks `0 … n` (all of them once `n ≥ 42`). -/
def upTo (p : Fin 43 → EReal) (n : ℕ) : EReal := ∑ k ∈ Finset.range (n + 1), if h : k < 43 then p ⟨k, h⟩ else 0

theorem upTo_zero (p : Fin 43 → EReal) : upTo p 0 = p ⟨0, by omega⟩ := by
  unfold upTo
  rw [Finset.sum_range_one, dif_pos (by omega)]

theorem upTo_succ (p : Fin 43 → EReal) (n : ℕ) (h : n + 1 < 43) : upTo p (n + 1) = upTo p n + p ⟨n + 1, h⟩ := by
  unfold upTo
  rw [Finset.sum_range_succ _ (n + 1), dif_pos h]

theorem upTo_last (p : Fin 43 → EReal) : upTo p 42 = ∑ k : Fin 43, p k := by
  unfold upTo
  rw [Finset.sum_range]
  exact Finset.sum_congr rfl fun k _ => dif_pos k.isLt

end Cert.GatedMlp

end
-- ==== Proof.Blocks.lean ====
/-
  The grid point's four input blocks as pieces of the arrays the kernel region finds, and the body's step in those terms.

  The grid is 16 × 43, walked row by row: point `t` is row block `t / 43` of the tokens and block `t % 43` of the
  hidden width. At point `t` the token window holds rows `256 (t / 43) + r` of the token matrix; the gate's and the up
  projection's windows hold rows `256 (t % 43) + j` of their weight matrices; the down projection's window holds
  columns `256 (t % 43) + j` of its weight matrix. So the body's step at point `t` adds to the running block, at
  `(r, d)`, exactly hidden block `t % 43`'s contribution to output `(256 (t / 43) + r, d)` of the layer
  (`GatedMlp.part`): `point_step`.
-/
import proofs.«144711_j59279138619703_1_alg».proof.Proof.Gen.KernelIdeal.Frame
import proofs.«144711_j59279138619703_1_alg».proof.Proof.Step
import proofs.«144711_j59279138619703_1_alg».proof.Proof.GatedMlp
import Idealize.ShloMosaic.Lib.Pipeline.Value

noncomputable section

open Idealize.ShloMosaic Idealize.ShloMosaic.TcCoe Idealize.ShloMosaic.ValueIdx Idealize.SL.Sem

namespace Cert.KernelIdeal.Blocks

open Cert.KernelIdeal Cert.KernelIdeal.Gen Cert.GatedMlp

variable (m : (ℓ : Loc nD τ sig) → Buf (Elt Ideal) ℓ)

/-! ## The arrays the region finds, and the point's blocks, at their literal types -/

/-- The token matrix as the region finds it. -/
abbrev tokArr (c : Dev nD) : STok.Idx → EReal := V m c main_v1
/-- The gate's, the up projection's and the down projection's weights as the region finds them. -/
abbrev gateArr (c : Dev nD) : SIn.Idx → EReal := V m c main_v2
abbrev upArr (c : Dev nD) : SIn.Idx → EReal := V m c main_v3
abbrev downArr (c : Dev nD) : SOut.Idx → EReal := V m c main_v4

abbrev tokBlk (c : Dev nD) (t : Fin cfg0.N) : Vec Ideal S256x4096 .bf16 := iblk m c 0 t
abbrev gateBlk (c : Dev nD) (t : Fin cfg0.N) : Vec Ideal S256x4096 .bf16 := iblk m c 1 t
abbrev upBlk (c : Dev nD) (t : Fin cfg0.N) : Vec Ideal S256x4096 .bf16 := iblk m c 2 t
abbrev downBlk (c : Dev nD) (t : Fin cfg0.N) : Vec Ideal S4096x256 .bf16 := iblk m c 3 t

/-! ## Where a grid point sits -/

theorem points : cfg0.N = 688 := N_0

/-- The point's row block of tokens, and its block of the hidden width. -/
def rowOf (t : Fin cfg0.N) : Fin 16 := ⟨t.val / 43, by have := t.isLt; have := points; omega⟩
def blkOf (t : Fin cfg0.N) : Fin 43 := ⟨t.val % 43, Nat.mod_lt _ (by decide)⟩

/-- The windows' block indices at a point, decided over the grid. -/
theorem index_tok : ∀ t : Fin cfg0.N, win0_0.index t (0 : Fin 2) = t.val / 43 ∧ win0_0.index t (1 : Fin 2) = 0 :=
  (by decide +kernel : ∀ t : Fin grid0.N, win0_0.index t (0 : Fin 2) = t.val / 43 ∧ win0_0.index t (1 : Fin 2) = 0)
theorem index_gate : ∀ t : Fin cfg0.N, win0_1.index t (0 : Fin 2) = t.val % 43 ∧ win0_1.index t (1 : Fin 2) = 0 :=
  (by decide +kernel : ∀ t : Fin grid0.N, win0_1.index t (0 : Fin 2) = t.val % 43 ∧ win0_1.index t (1 : Fin 2) = 0)
theorem index_up : ∀ t : Fin cfg0.N, win0_2.index t (0 : Fin 2) = t.val % 43 ∧ win0_2.index t (1 : Fin 2) = 0 :=
  (by decide +kernel : ∀ t : Fin grid0.N, win0_2.index t (0 : Fin 2) = t.val % 43 ∧ win0_2.index t (1 : Fin 2) = 0)
theorem index_down : ∀ t : Fin cfg0.N, win0_3.index t (0 : Fin 2) = 0 ∧ win0_3.index t (1 : Fin 2) = t.val % 43 :=
  (by decide +kernel : ∀ t : Fin grid0.N, win0_3.index t (0 : Fin 2) = 0 ∧ win0_3.index t (1 : Fin 2) = t.val % 43)
theorem index_out : ∀ t : Fin cfg0.N, win0_4.index t (0 : Fin 2) = t.val / 43 ∧ win0_4.index t (1 : Fin 2) = 0 :=
  (by decide +kernel : ∀ t : Fin grid0.N, win0_4.index t (0 : Fin 2) = t.val / 43 ∧ win0_4.index t (1 : Fin 2) = 0)

/-! ## Each block is a piece of its array -/

/-- The token window at point `t` holds the rows of row block `t / 43`. -/
theorem tokBlk_apply (c : Dev nD) (t : Fin cfg0.N) (r : Fin 256) (e : Fin 4096) :
    tokBlk m c t (ix2 r e) = tokArr m c (ix2 (tok (rowOf t) r) e) := by
  unfold tokBlk iblk
  rw [View.read_apply]
  show V m c main_v1 _ = V m c main_v1 _
  congr 1
  funext a
  apply Fin.ext
  match a with
  | ⟨0, _⟩ => show win0_0.index t 0 * 256 + 1 * r.val = 256 * (t.val / 43) + r.val; rw [(index_tok t).1]; omega
  | ⟨1, _⟩ => show win0_0.index t 1 * 4096 + 1 * e.val = e.val; rw [(index_tok t).2]; omega

/-- The gate's window holds the rows of hidden block `t % 43`. -/
theorem gateBlk_apply (c : Dev nD) (t : Fin cfg0.N) (j : Fin 256) (e : Fin 4096) :
    gateBlk m c t (ix2 j e) = gateArr m c (ix2 (unit (blkOf t) j) e) := by
  unfold gateBlk iblk
  rw [View.read_apply]
  show V m c main_v2 _ = V m c main_v2 _
  congr 1
  funext a
  apply Fin.ext
  match a with
  | ⟨0, _⟩ => show win0_1.index t 0 * 256 + 1 * j.val = 256 * (t.val % 43) + j.val; rw [(index_gate t).1]; omega
  | ⟨1, _⟩ => show win0_1.index t 1 * 4096 + 1 * e.val = e.val; rw [(index_gate t).2]; omega

/-- The up projection's window likewise. -/
theorem upBlk_apply (c : Dev nD) (t : Fin cfg0.N) (j : Fin 256) (e : Fin 4096) :
    upBlk m c t (ix2 j e) = upArr m c (ix2 (unit (blkOf t) j) e) := by
  unfold upBlk iblk
  rw [View.read_apply]
  show V m c main_v3 _ = V m c main_v3 _
  congr 1
  funext a
  apply Fin.ext
  match a with
  | ⟨0, _⟩ => show win0_2.index t 0 * 256 + 1 * j.val = 256 * (t.val % 43) + j.val; rw [(index_up t).1]; omega
  | ⟨1, _⟩ => show win0_2.index t 1 * 4096 + 1 * e.val = e.val; rw [(index_up t).2]; omega

/-- The down projection's window holds the columns of hidden block `t % 43`. -/
theorem downBlk_apply (c : Dev nD) (t : Fin cfg0.N) (d : Fin 4096) (j : Fin 256) :
    downBlk m c t (ix2 d j) = downArr m c (ix2 d (unit (blkOf t) j)) := by
  unfold downBlk iblk
  rw [View.read_apply]
  show V m c main_v4 _ = V m c main_v4 _
  congr 1
  funext a
  apply Fin.ext
  match a with
  | ⟨0, _⟩ => show win0_3.index t 0 * 4096 + 1 * d.val = d.val; rw [(index_down t).1]; omega
  | ⟨1, _⟩ => show win0_3.index t 1 * 256 + 1 * j.val = 256 * (t.val % 43) + j.val; rw [(index_down t).2]; omega

/-! ## The body's step at a point -/

/-- The block-level inner products are the layer's projections at the point's rows. -/
theorem inner_gate (c : Dev nD) (t : Fin cfg0.N) (r j : Fin 256) :
    Step.inner (tokBlk m c t) (gateBlk m c t) r j = proj (tokArr m c) (gateArr m c) (tok (rowOf t) r) (unit (blkOf t) j) := by
  unfold Step.inner proj
  exact Finset.sum_congr rfl fun e _ => by rw [tokBlk_apply, gateBlk_apply]
theorem inner_up (c : Dev nD) (t : Fin cfg0.N) (r j : Fin 256) :
    Step.inner (tokBlk m c t) (upBlk m c t) r j = proj (tokArr m c) (upArr m c) (tok (rowOf t) r) (unit (blkOf t) j) := by
  unfold Step.inner proj
  exact Finset.sum_congr rfl fun e _ => by rw [tokBlk_apply, upBlk_apply]

/-- At point `t` the body adds hidden block `t % 43`'s contribution to the outputs of row block `t / 43`. -/
theorem point_step (c : Dev nD) (t : Fin cfg0.N) (acc : Vec Ideal S256x4096 .f32) (r : Fin 256) (d : Fin 4096) :
    k0_pay2 (F := Ideal) (tokBlk m c t) (gateBlk m c t) (upBlk m c t) (downBlk m c t) acc (ix2 r d)
      = acc (ix2 r d) + part (tokArr m c) (gateArr m c) (upArr m c) (downArr m c) (tok (rowOf t) r) d (blkOf t) := by
  rw [Step.step_apply]
  refine congrArg _ ?_
  unfold part hid
  exact Finset.sum_congr rfl fun j _ => by rw [inner_gate, inner_up, downBlk_apply]

end Cert.KernelIdeal.Blocks

end
-- ==== Proof.Pieces.lean ====
/-
  What one run of the kernel body leaves behind, as values, at any float instance.

  The body keeps a running block `acc` (256 tokens × model width) in a scratch buffer across the grid's second axis.
  Write `step x wg wu wd acc` for the body's one arithmetic term (`k0_pay2`): `acc` plus the down projection of
  this point's 256 hidden values. Then, according to which of its two conditionals a grid point takes:
    * first point of a row of the grid (the reset is taken): the scratch ends at `step … zero`, the zero block being what
      the reset just stored and the update read back;
    * a middle point: the scratch ends at `step … acc` of what the point before left;
    * last point of a row: the same, and the output block is a copy of the scratch read back after that store.
-/
import proofs.«144711_j59279138619703_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem origin : (![0, 0] : Fin 2 → Nat) = fun _ => 0 := funext fun a => by fin_cases a <;> rfl

/-- A middle point: one covering store of the update, every load reading a whole buffer. -/
theorem scratch_mid (c : Dev nD) (i : grid0.Coords) (a2 : Memref sig .tc .vmem S256x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S256x4096 .f32) (h6 : a6.IsWhole) (a7 : Memref sig .tc .vmem S256x4096 .f32) (h7 : a7.IsWhole) (hc0 : ¬cond0_0 i) (hc1 : ¬cond0_1 i)
    (x0 x1 x2 : Vec F S256x4096 .bf16) (x3 : Vec F S4096x256 .bf16) (xs0 : Vec F S256x4096 .f32) :
    sout0_B_0 c i a2 h2 a3 h3 a4 h4 a5 h5 a6 h6 a7 h7 hc0 hc1 x0 x1 x2 x3 xs0 = k0_pay2 x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero origin]
  simp only [View.readAt_eq_ld, h2.read_unread, h3.read_unread, h4.read_unread, h5.read_unread, h7.read_unread,
    View.ld_unit_zero (S := S256x4096) origin, View.ld_unit_zero (S := S4096x256) origin]

/-- The first point of a row: the reset's zero block, then the update over that block read back. -/
theorem scratch_first (c : Dev nD) (i : grid0.Coords) (a2 : Memref sig .tc .vmem S256x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S256x4096 .f32) (h6 : a6.IsWhole) (a7 : Memref sig .tc .vmem S256x4096 .f32) (h7 : a7.IsWhole) (hc0 : cond0_0 i) (hc1 : ¬cond0_1 i)
    (x0 x1 x2 : Vec F S256x4096 .bf16) (x3 : Vec F S4096x256 .bf16) :
    sout0_A_0 c i a2 h2 a3 h3 a4 h4 a5 h5 a6 h6 a7 h7 hc0 hc1 x0 x1 x2 x3 = k0_pay2 x0 x1 x2 x3 k0_pay1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S256x4096) origin]
  simp only [View.readAt_eq_ld, h2.read_unread, h3.read_unread, h4.read_unread, h5.read_unread,
    View.ld_unit_zero (S := S256x4096) origin, View.ld_unit_zero (S := S4096x256) origin,
    View.readCov_unit_zero (S := S256x4096) _ origin]

/-- The last point of a row leaves the scratch as a middle point does … -/
theorem scratch_last (c : Dev nD) (i : grid0.Coords) (a2 : Memref sig .tc .vmem S256x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S256x4096 .f32) (h6 : a6.IsWhole) (a7 : Memref sig .tc .vmem S256x4096 .f32) (h7 : a7.IsWhole) (hc0 : ¬cond0_0 i) (hc1 : cond0_1 i)
    (x0 x1 x2 : Vec F S256x4096 .bf16) (x3 : Vec F S4096x256 .bf16) (xs0 : Vec F S256x4096 .f32) :
    sout0_C_0 c i a2 h2 a3 h3 a4 h4 a5 h5 a6 h6 a7 h7 hc0 hc1 x0 x1 x2 x3 xs0 = k0_pay2 x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero origin]
  simp only [View.readAt_eq_ld, h2.read_unread, h3.read_unread, h4.read_unread, h5.read_unread, h7.read_unread,
    View.ld_unit_zero (S := S256x4096) origin, View.ld_unit_zero (S := S4096x256) origin]

/-- … and stores into the output block what it then reads back from the scratch: the same block. -/
theorem output_last (c : Dev nD) (i : grid0.Coords) (a2 : Memref sig .tc .vmem S256x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S256x4096 .f32) (h6 : a6.IsWhole) (a7 : Memref sig .tc .vmem S256x4096 .f32) (h7 : a7.IsWhole) (hc0 : ¬cond0_0 i) (hc1 : cond0_1 i)
    (x0 x1 x2 : Vec F S256x4096 .bf16) (x3 : Vec F S4096x256 .bf16) (xs0 : Vec F S256x4096 .f32) :
    out0_C_4 c i a2 h2 a3 h3 a4 h4 a5 h5 a6 h6 a7 h7 hc0 hc1 x0 x1 x2 x3 xs0 = k0_pay2 x0 x1 x2 x3 xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero origin]
  simp only [View.readAt_eq_ld, h2.read_unread, h3.read_unread, h4.read_unread, h5.read_unread, h7.read_unread,
    View.ld_unit_zero (S := S256x4096) origin, View.ld_unit_zero (S := S4096x256) origin,
    View.readCov_unit_zero (S := S256x4096) _ origin]

end Cert.KernelIdeal.Pieces

end
-- ==== Proof.Accum.lean ====
/-
  The accumulation over the grid, and the array it leaves.

  Within a row of the grid (a fixed row block of 256 tokens) the scratch block is reset at the first point and gains one
  hidden block's contribution per point, so after point `t` it holds, at `(r, d)`, the partial sum of the contributions of
  hidden blocks `0 … t % 43` to output `(256 (t / 43) + r, d)` (`scratch_eq`, by induction on the point: a left fold
  from zero is the partial sum, extended-real addition being associative with `0 + a = a`). At the last point of a row
  the partial sum is the whole sum over the 43 blocks, which is the layer's output (`GatedMlp.out_eq_sum_part`), and that
  point copies the scratch to the output block (`out_block`); the pipeline writes the block back at exactly those points.
  The 16 written blocks are the 16 row blocks of the result, which they tile: the result array ends holding the layer of
  the arrays the region found (`final`).
-/
import proofs.«144711_j59279138619703_1_alg».proof.Proof.Blocks
import proofs.«144711_j59279138619703_1_alg».proof.Proof.Pieces
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Accum

open Cert.KernelIdeal Cert.KernelIdeal.Gen Cert.KernelIdeal.Blocks Cert.GatedMlp

variable (m : (ℓ : Loc nD τ sig) → Buf (Elt Ideal) ℓ)

/-- What each hidden block adds to the output at token `r` of row block `i`, feature `d`. -/
abbrev share (c : Dev nD) (i : Fin 16) (r : Fin 256) (d : Fin 4096) : Fin 43 → EReal :=
  part (tokArr m c) (gateArr m c) (upArr m c) (downArr m c) (tok i r) d

/-- The block the reset stores is zero everywhere. -/
theorem zero_block (r : Fin 256) (d : Fin 4096) : k0_pay1 (F := Ideal) (ix2 r d) = 0 := by
  unfold k0_pay1
  simp only [shapeCast_self]
  exact Ideal.ofBits_zero_f32

/-! ## One grid point -/

/-- At the first point of a row the scratch ends at that point's hidden block's contribution alone. -/
theorem first_step (c : Dev nD) (t : Fin cfg0.N) (h0 : t.val % 43 = 0) (r : Fin 256) (d : Fin 4096) :
    (outsAt0 m c t.val t.isLt).2 (ix2 r d) = share m c (rowOf t) r d (blkOf t) := by
  have h1 : ¬t.val % 43 = 42 := by omega
  rw [outsAt0_A m c t h0 h1]
  dsimp only
  refine (congrFun (Pieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h))
    (iblk m c 0 t) (iblk m c 1 t) (iblk m c 2 t) (iblk m c 3 t)) (ix2 r d)).trans ?_
  refine (point_step m c t _ r d).trans ?_
  rw [zero_block, zero_add]

/-- At every other point it gains that point's hidden block's contribution over what the point before left. -/
theorem next_step (c : Dev nD) (t : Fin cfg0.N) (h0 : ¬t.val % 43 = 0) (r : Fin 256) (d : Fin 4096) :
    (outsAt0 m c t.val t.isLt).2 (ix2 r d)
      = (outsAt0 m c (t.val - 1) (Nat.lt_of_le_of_lt (Nat.sub_le _ _) t.isLt)).2 (ix2 r d) + share m c (rowOf t) r d (blkOf t) := by
  by_cases h1 : t.val % 43 = 42
  · rw [outsAt0_C m c t h0 h1]
    dsimp only
    refine (congrFun (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2) (ix2 r d)).trans ?_
    exact point_step m c t _ r d
  · rw [outsAt0_B m c t h0 h1]
    dsimp only
    refine (congrFun (Pieces.scratch_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h))
      (iblk m c 0 t) (iblk m c 1 t) (iblk m c 2 t) (iblk m c 3 t) (outsAt0 m c (t.val - 1) (Nat.lt_of_le_of_lt (Nat.sub_le _ _) t.isLt)).2) (ix2 r d)).trans ?_
    exact point_step m c t _ r d

/-- At the last point of a row the output block is a copy of the scratch. -/
theorem output_step (c : Dev nD) (t : Fin cfg0.N) (h1 : t.val % 43 = 42) :
    (outsAt0 m c t.val t.isLt).1 = (outsAt0 m c t.val t.isLt).2 := by
  have h0 : ¬t.val % 43 = 0 := by omega
  rw [outsAt0_C m c t h0 h1]
  dsimp only
  exact (Pieces.output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2).trans
    (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2).symm

/-! ## All the points: the scratch holds the partial sum over the hidden blocks seen so far in the row -/

theorem scratch_eq (c : Dev nD) : ∀ (n : ℕ) (h : n < cfg0.N) (r : Fin 256) (d : Fin 4096),
    (outsAt0 m c n h).2 (ix2 r d) = upTo (share m c (rowOf ⟨n, h⟩) r d) (n % 43)
  | 0, h, r, d => (first_step m c ⟨0, h⟩ rfl r d).trans (upTo_zero _).symm
  | n + 1, h, r, d => by
    have hN := points
    by_cases h0 : (n + 1) % 43 = 0
    · refine (first_step m c ⟨n + 1, h⟩ h0 r d).trans ?_
      rw [h0, upTo_zero]
      exact congrArg _ (Fin.ext h0)
    · refine (next_step m c ⟨n + 1, h⟩ h0 r d).trans ?_
      have ih := scratch_eq c n (Nat.lt_of_succ_lt h) r d
      have e1 : (n + 1) % 43 = n % 43 + 1 := by omega
      have e2 : (n + 1) / 43 = n / 43 := by omega
      have hr : rowOf ⟨n + 1, h⟩ = rowOf ⟨n, Nat.lt_of_succ_lt h⟩ := Fin.ext e2
      have hlt : n % 43 + 1 < 43 := by omega
      show (outsAt0 m c n _).2 (ix2 r d) + _ = _
      rw [ih, hr, e1, upTo_succ _ _ hlt]
      exact congrArg₂ (· + ·) rfl (congrArg _ (Fin.ext e1))

/-! ## What is written back -/

/-- The layer of the arrays the region finds: what the result array will hold. -/
abbrev layer (c : Dev nD) : Buf (Elt Ideal) ((c : Thread nD τ).loc main_v5) :=
  out (tokArr m c) (gateArr m c) (upArr m c) (downArr m c)

/-- At the last point of a row the output block holds the layer's outputs for the row block's tokens. -/
theorem out_block (c : Dev nD) (t : Fin cfg0.N) (h42 : t.val % 43 = 42) (r : Fin 256) (d : Fin 4096) :
    (outsAt0 m c t.val t.isLt).1 (ix2 r d) = layer m c (ix2 (tok (rowOf t) r) d) := by
  rw [output_step m c t h42]
  refine (scratch_eq m c t.val t.isLt r d).trans ?_
  rw [h42, upTo_last]
  exact (out_eq_sum_part _ _ _ _ (ix2 (tok (rowOf t) r) d)).symm

/-- The same as one function of the block's index. -/
theorem out_block_fn (c : Dev nD) (t : Fin cfg0.N) (h42 : t.val % 43 = 42) :
    (outsAt0 m c t.val t.isLt).1 = fun y : S256x4096.Idx => layer m c (ix2 (tok (rowOf t) (y 0)) (y 1)) := by
  funext y
  obtain ⟨r, d, rfl⟩ : ∃ (r : Fin 256) (d : Fin 4096), y = ix2 r d := ⟨y 0, y 1, eq_ix2 y⟩
  exact out_block m c t h42 r d

/-- So what a flushing point writes back is its block of the layer. -/
theorem flushed_eq (c : Dev nD) (t : Fin cfg0.N) (hf : (cfg0.win 4).flush t = true) :
    (dats m 0 c).flushed 4 t = ((cfg0.win 4).blk t).view.read (Elt Ideal) (layer m c) := by
  have h42 : t.val % 43 = 42 := (flush0_4 t).mp hf
  show (cfg0.win 4).cut (grid0.coords t) ((dats m 0 c).after 4 t) = _
  rw [after0_4, out_block_fn m c t h42]
  funext y
  rw [View.read_apply]
  show layer m c (ix2 (tok (rowOf t) (y 0)) (y 1)) = layer m c (((cfg0.win 4).blk t).view.emb y)
  congr 1
  funext a
  apply Fin.ext
  match a with
  | ⟨0, _⟩ => show 256 * (t.val / 43) + (y 0).val = win0_4.index t 0 * 256 + 1 * (y 0).val; rw [(index_out t).1]; omega
  | ⟨1, _⟩ => show (y 1).val = win0_4.index t 1 * 4096 + 1 * (y 1).val; rw [(index_out t).2]; omega

/-- An index of the result is in a point's block iff each coordinate is in the block's range on its axis. -/
theorem mem_blk (t : Fin cfg0.N) (i : S4096x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v5).slice (win0_4.rect t)).set ↔ _
  rw [View.set_slice_whole, Rect.mem_set_unit]
  exact Iff.rfl

/-- Token `i 0` lies in row block `i 0 / 256`, which the last point of that row of the grid writes back. -/
theorem cover (i : S4096x4096.Idx) : ∃ t : Fin cfg0.N, (cfg0.win 4).flush t = true ∧ i ∈ ((cfg0.win 4).blk t).view.set := by
  have hN := points
  have hi0 : (i 0).val < 4096 := (i 0).isLt
  have hi1 : (i 1).val < 4096 := (i 1).isLt
  refine ⟨⟨43 * ((i 0).val / 256) + 42, by omega⟩, (flush0_4 _).mpr (by show (43 * ((i 0).val / 256) + 42) % 43 = 42; omega), ?_⟩
  rw [mem_blk]
  have e := index_out ⟨43 * ((i 0).val / 256) + 42, by omega⟩
  have q : (43 * ((i 0).val / 256) + 42) / 43 = (i 0).val / 256 := by omega
  intro a
  match a with
  | ⟨0, _⟩ => show win0_4.index _ 0 * 256 ≤ (i 0).val ∧ (i 0).val < win0_4.index _ 0 * 256 + 256; rw [e.1]; show (43 * ((i 0).val / 256) + 42) / 43 * 256 ≤ _ ∧ _ < (43 * ((i 0).val / 256) + 42) / 43 * 256 + 256; rw [q]; omega
  | ⟨1, _⟩ => show win0_4.index _ 1 * 4096 ≤ (i 1).val ∧ (i 1).val < win0_4.index _ 1 * 4096 + 4096; rw [e.2]; omega

/-- The result array after the region: the layer of the arrays the region found. -/
theorem final (c : Dev nD) : (dats m 0 c).arrAt 4 cfg0.N = layer m c :=
  (dats m 0 c).arrAt_eq_of_cover 4 (layer m c) (flushed_eq m c) cover

end Cert.KernelIdeal.Accum

end
-- ==== Proof.KernelRun.lean ====
/-
  The idealized kernel's whole run, read as one function of its four inputs.

  Before the region the host reshapes the input to the 4096-row token matrix and rounds all four arrays to a narrower
  format, which on the extended reals changes nothing: the region finds the reshaped input and the three weight matrices
  themselves (`tokArr_eq` … `downArr_eq`). After the region the host reshapes the result array back to the input's
  shape (`result_eq`). So every run ends with the result at the reshape of the layer of (the reshaped input, the three
  weight matrices), and the inputs unchanged (`run`).
-/
import proofs.«144711_j59279138619703_1_alg».proof.Proof.Accum
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.KernelRun

open Cert.KernelIdeal Cert.KernelIdeal.Gen Cert.KernelIdeal.Blocks Cert.KernelIdeal.Accum Cert.GatedMlp

variable (m : (ℓ : Loc nD τ sig) → Buf (Elt Ideal) ℓ) (ρ : Dev nD → PrngReg)

/-! ## Before the region -/

theorem tokArr_eq (c : Dev nD) :
    tokArr m c = shapeCast S4096x4096 (m ((c : Thread nD τ).loc main_arg0)) shapeCasts_S2x2048x4096_S4096x4096 := by
  show StableHlo.after hostOps0 (fun b => m (c, b)) (Proc.devRef .tc main_v1) = _
  after_results
  rfl

theorem gateArr_eq (c : Dev nD) : gateArr m c = m ((c : Thread nD τ).loc main_arg1) := by
  show StableHlo.after hostOps0 (fun b => m (c, b)) (Proc.devRef .tc main_v2) = _
  after_results
  rfl

theorem upArr_eq (c : Dev nD) : upArr m c = m ((c : Thread nD τ).loc main_arg2) := by
  show StableHlo.after hostOps0 (fun b => m (c, b)) (Proc.devRef .tc main_v3) = _
  after_results
  rfl

theorem downArr_eq (c : Dev nD) : downArr m c = m ((c : Thread nD τ).loc main_arg3) := by
  show StableHlo.after hostOps0 (fun b => m (c, b)) (Proc.devRef .tc main_v4) = _
  after_results
  rfl

/-- The layer of the inputs: the reshaped input against the three weight matrices. -/
abbrev answer (c : Dev nD) : S4096x4096.Idx → EReal :=
  out (shapeCast S4096x4096 (m ((c : Thread nD τ).loc main_arg0)) shapeCasts_S2x2048x4096_S4096x4096)
    (m ((c : Thread nD τ).loc main_arg1)) (m ((c : Thread nD τ).loc main_arg2)) (m ((c : Thread nD τ).loc main_arg3))

theorem layer_eq (c : Dev nD) : layer m c = answer m c := by
  unfold layer answer
  rw [tokArr_eq, gateArr_eq, upArr_eq, downArr_eq]

/-! ## After the region -/

theorem result_eq (c : Dev nD) :
    Pipeline.afterTail₀ cfgs (dats m) 0 (V0 m) [hostOps1] c main_v6
      = shapeCast S2x2048x4096 (answer m c) shapeCasts_S4096x4096_S2x2048x4096 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = answer m c :=
    (Pipeline.withArrays_arr spec0 launch0.win.arr_inj c _ _ 4).trans ((final m c).trans (layer_eq m c))
  show shapeCast S2x2048x4096 (Pipeline.withArrays (cfgs 0).spec c (V0 m c) (fun w => (dats m 0 c).arrAt w (cfgs 0).N)
    (Proc.devRef .tc main_v5)) shapeCasts_S4096x4096_S2x2048x4096 = _
  rw [e]

/-! ## The run -/

/-- Every weakly fair execution ends with the result at the reshape of the layer of the inputs, the inputs unchanged. -/
theorem run : θ_run defs (onTc (τ := τ) (main (F := Ideal))) ⟨m, fun _ => 0, ρ⟩ fun r => ∀ c : Dev nD,
      r.2.mem ((c : Thread nD τ).loc main_v6) = shapeCast S2x2048x4096 (answer m c) shapeCasts_S4096x4096_S2x2048x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.RefValue.lean ====
/-
  The reference, read back: its result before the final reshape is the layer `GatedMlp.out` of the token matrix
  (the input reshaped to 4096 rows) and the three weight matrices.

  Stage by stage: both projections are inner products of a token's row with a hidden unit's row (`proj_gate`,
  `proj_up`); the reference spells the logistic function as `1 / (1 + exp (-g))`, which on the extended reals IS
  `Ideal.logistic g` by definition once the two words `1.0` are read as `1` (`hidden_eq`); the last contraction
  runs over the whole hidden width (`down_eq`).
-/
import proofs.«144711_j59279138619703_1_alg».proof.Proof.Gen.ReferenceIdeal.Read
import proofs.«144711_j59279138619703_1_alg».proof.Proof.GatedMlp
import Idealize.ShloMosaic.PureOps.IdealRules

noncomputable section

namespace Cert.ReferenceIdeal.RefValue

open Cert.ReferenceIdeal Cert.ReferenceIdeal.Read Cert.GatedMlp
open Idealize.ShloMosaic Idealize.ShloMosaic.ValueIdx

/-- The word `0x3F800000` is the number one. -/
theorem one_word : Ideal.ofBits .f32 0x3F800000#32 = 1 := IdealRules.sign_bit.ideal_onePat .f32

/-- The operand indices of the three contractions are (row, summation index). -/
theorem lidx_gate (j : S4096x11008.Idx) (d : Fin 4096) : lidx_main_v2 j d = ix2 (j 0) d :=
  funext fun a => by match a with | ⟨0, _⟩ => rfl | ⟨1, _⟩ => rfl
theorem ridx_gate (j : S4096x11008.Idx) (d : Fin 4096) : ridx_main_v2 j d = ix2 (j 1) d :=
  funext fun a => by match a with | ⟨0, _⟩ => rfl | ⟨1, _⟩ => rfl
theorem lidx_up (j : S4096x11008.Idx) (d : Fin 4096) : lidx_main_v1 j d = ix2 (j 0) d :=
  funext fun a => by match a with | ⟨0, _⟩ => rfl | ⟨1, _⟩ => rfl
theorem ridx_up (j : S4096x11008.Idx) (d : Fin 4096) : ridx_main_v1 j d = ix2 (j 1) d :=
  funext fun a => by match a with | ⟨0, _⟩ => rfl | ⟨1, _⟩ => rfl
theorem lidx_down (i : S4096x4096.Idx) (f : Fin 11008) : lidx_main_v5 i f = ix2 (i 0) f :=
  funext fun a => by match a with | ⟨0, _⟩ => rfl | ⟨1, _⟩ => rfl
theorem ridx_down (i : S4096x4096.Idx) (f : Fin 11008) : ridx_main_v5 i f = ix2 (i 1) f :=
  funext fun a => by match a with | ⟨0, _⟩ => rfl | ⟨1, _⟩ => rfl

variable (x0 : (⟨S2x2048x4096, .f32⟩ : BufTy).Contents (Elt Ideal))
  (x1 x2 : (⟨S11008x4096, .f32⟩ : BufTy).Contents (Elt Ideal)) (x3 : (⟨S4096x11008, .f32⟩ : BufTy).Contents (Elt Ideal))

/-- The token matrix: the input's 2 × 2048 leading axes flattened to 4096 rows. -/
abbrev tokens : STok.Idx → EReal := val_main_v0 (F := Ideal) x0

/-- The gate's pre-activation at (token, hidden unit) is the inner product of their rows. -/
theorem proj_gate (j : S4096x11008.Idx) : val_main_v2 (F := Ideal) x0 x1 j = proj (tokens x0) x1 (j 0) (j 1) := by
  rw [val_main_v2_apply]
  unfold proj
  exact Finset.sum_congr rfl fun d _ => by rw [lidx_gate, ridx_gate]; rfl

/-- The up projection likewise, over the other weight matrix. -/
theorem proj_up (j : S4096x11008.Idx) : val_main_v1 (F := Ideal) x0 x2 j = proj (tokens x0) x2 (j 0) (j 1) := by
  rw [val_main_v1_apply]
  unfold proj
  exact Finset.sum_congr rfl fun d _ => by rw [lidx_up, ridx_up]; rfl

/-- The hidden value: `g · (1 / (1 + exp (-g)))` is `g · σ(g)`, then times the up projection. -/
theorem hidden_eq (j : S4096x11008.Idx) :
    val_main_v4 (F := Ideal) x0 x1 x2 j = hid (tokens x0) x1 x2 (j 0) (j 1) := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, proj_gate, proj_up]
  unfold hid
  simp only [Ideal.mulf_def, Ideal.hostDivf_def, Ideal.addf_def, Ideal.hostUnary_exp_def, Ideal.hostNegf_def,
    Ideal.negf_def, Ideal.ofBits_def, one_word]
  rfl

/-- The last contraction sums the hidden values against the down weights over the whole hidden width: the layer. -/
theorem down_eq : val_main_v5 (F := Ideal) x0 x1 x2 x3 = out (tokens x0) x1 x2 x3 := by
  funext i
  rw [val_main_v5_apply]
  unfold out
  exact Finset.sum_congr rfl fun f _ => by rw [hidden_eq, lidx_down, ridx_down]; rfl

end Cert.ReferenceIdeal.RefValue

end
-- ==== Proof.lean ====
/- A gated feed-forward layer computed block by block equals the layer computed whole.

   The kernel flattens the input to 4096 tokens of width 4096 and, for each row block of 256 tokens, walks the hidden
   width (11008) in 43 blocks of 256: it forms the gate and up projections of the block, the hidden values
   `(g · σ(g)) · u`, their down projection, and adds that to a running block which it resets at the first hidden block
   and writes out after the last. The reference computes the same three contractions whole, spelling `σ(g)` as
   `1 / (1 + exp (-g))`. Over the extended reals the narrowing of formats is the identity, `1 / (1 + exp (-g))` is
   the logistic function by definition, a product into a zero accumulator is the bare sum of products, and a sum over the
   hidden width is the sum over its 43 blocks of each block's sum in any grouping, addition being commutative and
   associative with `0 + a = a`. So both programs end at the reshape of one function, `GatedMlp.out`, of the reshaped
   input and the three weight matrices. No finiteness of the inputs is used.

   The three frames: the kernel's at both instances from its per-case runs over the grid; the reference's is its run with
   the result dropped. The idealization rewrote nothing, so `preserves` has nothing to state. -/
import proofs.«144711_j59279138619703_1_alg».proof.Defs
import proofs.«144711_j59279138619703_1_alg».proof.Proof.Gen.Kernel
import proofs.«144711_j59279138619703_1_alg».proof.Proof.Gen.Kernel.Skeleton
import proofs.«144711_j59279138619703_1_alg».proof.Proof.Gen.Kernel.Launch
import proofs.«144711_j59279138619703_1_alg».proof.Proof.Gen.Kernel.Points
import proofs.«144711_j59279138619703_1_alg».proof.Proof.Gen.Kernel.Frame
import proofs.«144711_j59279138619703_1_alg».proof.Proof.Gen.KernelIdeal
import proofs.«144711_j59279138619703_1_alg».proof.Proof.Gen.KernelIdeal.Skeleton
import proofs.«144711_j59279138619703_1_alg».proof.Proof.Gen.KernelIdeal.Launch
import proofs.«144711_j59279138619703_1_alg».proof.Proof.Gen.KernelIdeal.Points
import proofs.«144711_j59279138619703_1_alg».proof.Proof.Gen.KernelIdeal.Frame
import proofs.«144711_j59279138619703_1_alg».proof.Proof.Gen.ReferenceIdeal
import proofs.«144711_j59279138619703_1_alg».proof.Proof.Gen.ReferenceIdeal.Run
import proofs.«144711_j59279138619703_1_alg».proof.Proof.Gen.ReferenceIdeal.Read
import proofs.«144711_j59279138619703_1_alg».proof.Proof.Gen.Pre_finite_inputs
import proofs.«144711_j59279138619703_1_alg».proof.Proof.KernelRun
import proofs.«144711_j59279138619703_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the reshape of the layer of the reshaped input and the three weight matrices: the kernel's by the
    accumulation over the grid, the reference's stage by stage. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v6_eq _ _ _ _).trans ?_
  unfold Cert.ReferenceIdeal.Read.val_main_v6
  rw [Cert.ReferenceIdeal.RefValue.down_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
